-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S16x256 : Shape := ⟨2, ![16, 256]⟩
abbrev S256x256 : Shape := ⟨2, ![256, 256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S32x256x64x64 .f32) (main_arg1 : FVec F S16x256 .f32) (main_arg2 : FVec F S256x256 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S32x256x64x64 : Shape := ⟨4, ![32, 256, 64, 64]⟩
abbrev S16x256 : Shape := ⟨2, ![16, 256]⟩
abbrev S256x256 : Shape := ⟨2, ![256, 256]⟩
abbrev S32x256 : Shape := ⟨2, ![32, 256]⟩
abbrev S16x256x8x64 : Shape := ⟨4, ![16, 256, 8, 64]⟩
abbrev S16x256x8 : Shape := ⟨3, ![16, 256, 8]⟩
abbrev S32x16 : Shape := ⟨2, ![32, 16]⟩
abbrev S_ : Shape := ⟨0, ![]⟩
abbrev S32x16x1 : Shape := ⟨3, ![32, 16, 1]⟩
abbrev S32x1x16 : Shape := ⟨3, ![32, 1, 16]⟩
abbrev S32x16x16 : Shape := ⟨3, ![32, 16, 16]⟩
abbrev S8x128x16x64 : Shape := ⟨4, ![8, 128, 16, 64]⟩
abbrev S8x128 : Shape := ⟨2, ![8, 128]⟩
abbrev S8x128x1x1 : Shape := ⟨4, ![8, 128, 1, 1]⟩

abbrev nBuf : Space → Nat
  | .hbm => 24
  | .vmem => 10
  | .smem => 0
  | _ => 0

abbrev bufTy : (tb : Table) → Fin (tcTables nBuf tb) → BufTy
  | .hbm, ⟨0, _⟩ => ⟨S32x256x64x64, .f32⟩
  | .hbm, ⟨1, _⟩ => ⟨S16x256, .f32⟩
  | .hbm, ⟨2, _⟩ => ⟨S256x256, .f32⟩
  | .hbm, ⟨3, _⟩ => ⟨S32x256, .f32⟩
  | .hbm, ⟨4, _⟩ => ⟨S32x16, .f32⟩
  | .hbm, ⟨5, _⟩ => ⟨S_, .f32⟩
  | .hbm, ⟨6, _⟩ => ⟨S32x16, .f32⟩
  | .hbm, ⟨7, _⟩ => ⟨S32x16, .f32⟩
  | .hbm, ⟨8, _⟩ => ⟨S32x16x1, .f32⟩
  | .hbm, ⟨9, _⟩ => ⟨S32x1x16, .f32⟩
  | .hbm, ⟨10, _⟩ => ⟨S32x16x16, .f32⟩
  | .hbm, ⟨11, _⟩ => ⟨S32x16x16, .f32⟩
  | .hbm, ⟨12, _⟩ => ⟨S32x16x16, .f32⟩
  | .hbm, ⟨13, _⟩ => ⟨S32x256, .f32⟩
  | .hbm, ⟨14, _⟩ => ⟨S32x256, .f32⟩
  | .hbm, ⟨15, _⟩ => ⟨S32x256, .f32⟩
  | .hbm, ⟨16, _⟩ => ⟨S32x256, .f32⟩
  | .hbm, ⟨17, _⟩ => ⟨S_, .f32⟩
  | .hbm, ⟨18, _⟩ => ⟨S32x256, .f32⟩
  | .hbm, ⟨19, _⟩ => ⟨S32x256, .f32⟩
  | .hbm, ⟨20, _⟩ => ⟨S_, .f32⟩
  | .hbm, ⟨21, _⟩ => ⟨S32x256, .f32⟩
  | .hbm, ⟨22, _⟩ => ⟨S32x256, .f32⟩
  | .hbm, ⟨23, _⟩ => ⟨S32x256x64x64, .f32⟩
  | .local _ .vmem, ⟨0, _⟩ => ⟨S16x256x8x64, .f32⟩
  | .local _ .vmem, ⟨1, _⟩ => ⟨S16x256x8x64, .f32⟩
  | .local _ .vmem, ⟨2, _⟩ => ⟨S16x256, .f32⟩
  | .local _ .vmem, ⟨3, _⟩ => ⟨S16x256, .f32⟩
  | .local _ .vmem, ⟨4, _⟩ => ⟨S8x128x16x64, .f32⟩
  | .local _ .vmem, ⟨5, _⟩ => ⟨S8x128x16x64, .f32⟩
  | .local _ .vmem, ⟨6, _⟩ => ⟨S8x128, .f32⟩
  | .local _ .vmem, ⟨7, _⟩ => ⟨S8x128, .f32⟩
  | .local _ .vmem, ⟨8, _⟩ => ⟨S8x128x16x64, .f32⟩
  | .local _ .vmem, ⟨9, _⟩ => ⟨S8x128x16x64, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x256x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨3, ![4, 2, 4], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S8x128x16x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S8x128x16x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  inb_S16x256_S16x256_0_0 : ∀ a, (![0, 0] : Fin 2 → Nat) a + S16x256.size a ≤ S16x256.size a
  h_S16x256 : 0 < S16x256.numel
  inb_S16x256x8x64_S16x256x8x64_0_0_0_0 : ∀ a, (![0, 0, 0, 0] : Fin 4 → Nat) a + S16x256x8x64.size a ≤ S16x256x8x64.size a
  h_S16x256x8x64 : 0 < S16x256x8x64.numel
  reduces_S16x256x8x64_S16x256x8 : S16x256x8x64.Reduces [3] S16x256x8
  reduces_S16x256x8_S16x256 : S16x256x8.Reduces [2] S16x256
  shapeCasts_S16x256_S16x256 : S16x256.ShapeCasts S16x256
  bcast_S_S32x16 : S_.BroadcastsInDim S32x16 (![] : Fin 0 → Fin S32x16.rank)
  bcast_S32x16_S32x16x1_0_1 : S32x16.BroadcastsInDim S32x16x1 (![0, 1] : Fin 2 → Fin S32x16x1.rank)
  bcast_S32x16_S32x1x16_0_2 : S32x16.BroadcastsInDim S32x1x16 (![0, 2] : Fin 2 → Fin S32x1x16.rank)
  bcast_S32x16x1_S32x16x16_0_1_2 : S32x16x1.BroadcastsInDim S32x16x16 (![0, 1, 2] : Fin 3 → Fin S32x16x16.rank)
  bcast_S32x1x16_S32x16x16_0_1_2 : S32x1x16.BroadcastsInDim S32x16x16 (![0, 1, 2] : Fin 3 → Fin S32x16x16.rank)
  shapeCasts_S32x16x16_S32x256 : S32x16x16.ShapeCasts S32x256
  bcast_S_S32x256 : S_.BroadcastsInDim S32x256 (![] : Fin 0 → Fin S32x256.rank)
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S8x128_S8x128x1x1 : S8x128.ShapeCasts S8x128x1x1
  shapeCasts_S8x128x1x1_S8x128x1x1 : S8x128x1x1.ShapeCasts S8x128x1x1
  broadcasts_S8x128x1x1_S8x128x16x64 : S8x128x1x1.Broadcasts S8x128x16x64
  inb_S8x128x16x64_S8x128x16x64_0_0_0_0 : ∀ a, (![0, 0, 0, 0] : Fin 4 → Nat) a + S8x128x16x64.size a ≤ S8x128x16x64.size a
  h_S8x128x16x64 : 0 < S8x128x16x64.numel
  dot_S32x256_S16x256_S32x16_1_1_0_0_n_n_wf : DotDims.WF S32x256 S16x256 S32x16 [1] [1] [0] [0] [] []
  dot_S32x256_S256x256_S32x256_1_1_0_0_n_n_wf : DotDims.WF S32x256 S256x256 S32x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x8x64.size a ≤ S32x256x64x64.size a
  hwx0_0 : ∀ i : grid0.Coords, EltTy.bits .f32 = 32 ∨ (Rect.block (s := S32x256x64x64) S16x256x8x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S32x256.size a
  hwx0_1 : ∀ i : grid0.Coords, EltTy.bits .f32 = 32 ∨ (Rect.block (s := S32x256) S16x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x16x64.size a ≤ S32x256x64x64.size a
  hwx1_0 : ∀ i : grid1.Coords, EltTy.bits .f32 = 32 ∨ (Rect.block (s := S32x256x64x64) S8x128x16x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S32x256.size a
  hwx1_1 : ∀ i : grid1.Coords, EltTy.bits .f32 = 32 ∨ (Rect.block (s := S32x256) S8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128x16x64.size a ≤ S32x256x64x64.size a
  hwx1_2 : ∀ i : grid1.Coords, EltTy.bits .f32 = 32 ∨ (Rect.block (s := S32x256x64x64) S8x128x16x64.size (cc1_transform_2 i) (hinb1_2 i)).WholeWords (EltTy.packing .f32)

variable [Facts₀]

def dot_S32x256_S16x256_S32x16_1_1_0_0_n_n : DotDims S32x256 S16x256 S32x16 where
  lhsContracting := [1]
  rhsContracting := [1]
  lhsNonContracting := [0]
  rhsNonContracting := [0]
  lhsBatch := []
  rhsBatch := []
  wf := dot_S32x256_S16x256_S32x16_1_1_0_0_n_n_wf
def dot_S32x256_S256x256_S32x256_1_1_0_0_n_n : DotDims S32x256 S256x256 S32x256 where
  lhsContracting := [1]
  rhsContracting := [1]
  lhsNonContracting := [0]
  rhsNonContracting := [0]
  lhsBatch := []
  rhsBatch := []
  wf := dot_S32x256_S256x256_S32x256_1_1_0_0_n_n_wf

abbrev win0_0 : Pipeline.Window sig grid0 :=
  Pipeline.Window.ofSpec (Memref.whole main_arg0) S16x256x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S8x128x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S8x128x16x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x256x64x64 : Shape := ⟨4, ![32, 256, 64, 64]⟩
abbrev S16x256 : Shape := ⟨2, ![16, 256]⟩
abbrev S256x256 : Shape := ⟨2, ![256, 256]⟩
abbrev S_ : Shape := ⟨0, ![]⟩
abbrev S32x256 : Shape := ⟨2, ![32, 256]⟩
abbrev S32x16 : Shape := ⟨2, ![32, 16]⟩
abbrev S32x16x1 : Shape := ⟨3, ![32, 16, 1]⟩
abbrev S32x1x16 : Shape := ⟨3, ![32, 1, 16]⟩
abbrev S32x16x16 : Shape := ⟨3, ![32, 16, 16]⟩
abbrev S32x256x1x1 : Shape := ⟨4, ![32, 256, 1, 1]⟩

abbrev nBuf : Space → Nat
  | .hbm => 30
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S16x256, .f32⟩
  | .hbm, ⟨2, _⟩ => ⟨S256x256, .f32⟩
  | .hbm, ⟨3, _⟩ => ⟨S_, .f32⟩
  | .hbm, ⟨4, _⟩ => ⟨S32x256, .f32⟩
  | .hbm, ⟨5, _⟩ => ⟨S_, .f32⟩
  | .hbm, ⟨6, _⟩ => ⟨S32x256, .f32⟩
  | .hbm, ⟨7, _⟩ => ⟨S32x256, .f32⟩
  | .hbm, ⟨8, _⟩ => ⟨S32x16, .f32⟩
  | .hbm, ⟨9, _⟩ => ⟨S_, .f32⟩
  | .hbm, ⟨10, _⟩ => ⟨S32x16, .f32⟩
  | .hbm, ⟨11, _⟩ => ⟨S32x16, .f32⟩
  | .hbm, ⟨12, _⟩ => ⟨S32x16x1, .f32⟩
  | .hbm, ⟨13, _⟩ => ⟨S32x1x16, .f32⟩
  | .hbm, ⟨14, _⟩ => ⟨S32x16x16, .f32⟩
  | .hbm, ⟨15, _⟩ => ⟨S32x16x16, .f32⟩
  | .hbm, ⟨16, _⟩ => ⟨S32x16x16, .f32⟩
  | .hbm, ⟨17, _⟩ => ⟨S32x256, .f32⟩
  | .hbm, ⟨18, _⟩ => ⟨S32x256, .f32⟩
  | .hbm, ⟨19, _⟩ => ⟨S32x256, .f32⟩
  | .hbm, ⟨20, _⟩ => ⟨S32x256, .f32⟩
  | .hbm, ⟨21, _⟩ => ⟨S_, .f32⟩
  | .hbm, ⟨22, _⟩ => ⟨S32x256, .f32⟩
  | .hbm, ⟨23, _⟩ => ⟨S32x256, .f32⟩
  | .hbm, ⟨24, _⟩ => ⟨S_, .f32⟩
  | .hbm, ⟨25, _⟩ => ⟨S32x256, .f32⟩
  | .hbm, ⟨26, _⟩ => ⟨S32x256, .f32⟩
  | .hbm, ⟨27, _⟩ => ⟨S32x256x1x1, .f32⟩
  | .hbm, ⟨28, _⟩ => ⟨S32x256x64x64, .f32⟩
  | .hbm, ⟨29, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  reducesTo_S32x256x64x64_S32x256_d2_3 : S32x256x64x64.ReducesTo [2, 3] S32x256
  h_S_ : 0 < S_.numel
  bcast_S_S32x256 : S_.BroadcastsInDim S32x256 (![] : Fin 0 → Fin S32x256.rank)
  bcast_S_S32x16 : S_.BroadcastsInDim S32x16 (![] : Fin 0 → Fin S32x16.rank)
  bcast_S32x16_S32x16x1_0_1 : S32x16.BroadcastsInDim S32x16x1 (![0, 1] : Fin 2 → Fin S32x16x1.rank)
  bcast_S32x16_S32x1x16_0_2 : S32x16.BroadcastsInDim S32x1x16 (![0, 2] : Fin 2 → Fin S32x1x16.rank)
  bcast_S32x16x1_S32x16x16_0_1_2 : S32x16x1.BroadcastsInDim S32x16x16 (![0, 1, 2] : Fin 3 → Fin S32x16x16.rank)
  bcast_S32x1x16_S32x16x16_0_1_2 : S32x1x16.BroadcastsInDim S32x16x16 (![0, 1, 2] : Fin 3 → Fin S32x16x16.rank)
  shapeCasts_S32x16x16_S32x256 : S32x16x16.ShapeCasts S32x256
  bcast_S32x256_S32x256x1x1_0_1 : S32x256.BroadcastsInDim S32x256x1x1 (![0, 1] : Fin 2 → Fin S32x256x1x1.rank)
  bcast_S32x256x1x1_S32x256x64x64_0_1_2_3 : S32x256x1x1.BroadcastsInDim S32x256x64x64 (![0, 1, 2, 3] : Fin 4 → Fin S32x256x64x64.rank)
  dot_S32x256_S16x256_S32x16_1_1_0_0_n_n_wf : DotDims.WF S32x256 S16x256 S32x16 [1] [1] [0] [0] [] []
  dot_S32x256_S256x256_S32x256_1_1_0_0_n_n_wf : DotDims.WF S32x256 S256x256 S32x256 [1] [1] [0] [0] [] []

variable [Facts₀]

def dot_S32x256_S16x256_S32x16_1_1_0_0_n_n : DotDims S32x256 S16x256 S32x16 where
  lhsContracting := [1]
  rhsContracting := [1]
  lhsNonContracting := [0]
  rhsNonContracting := [0]
  lhsBatch := []
  rhsBatch := []
  wf := dot_S32x256_S16x256_S32x16_1_1_0_0_n_n_wf
def dot_S32x256_S256x256_S32x256_1_1_0_0_n_n : DotDims S32x256 S256x256 S32x256 where
  lhsContracting := [1]
  rhsContracting := [1]
  lhsNonContracting := [0]
  rhsNonContracting := [0]
  lhsBatch := []
  rhsBatch := []
  wf := dot_S32x256_S256x256_S32x256_1_1_0_0_n_n_wf

class Facts : Prop extends Facts₀ where

variable [Facts]
-- ==== Proof.Gate.lean ====
/-
  The gate. Between the pooling and the scaling both programs compute, from the pooled [32, 256] array p and the
  two weight arrays, the same gate: y = max(p · w1ᵀ, 0), a [32, 16] array; the outer product of each row of y with
  itself, flattened to [32, 256]; that times w2ᵀ; and the logistic 1 / (1 + exp(−·)) of the result. Nothing of it is
  ever opened: the two programs apply this one function to pooled arrays that are shown equal, so the gate enters
  the proof only as a function applied to equal arguments. Its dimension records and shape facts are parameters,
  so that each program's own copies of them can be put in.
-/
import Idealize.ShloMosaic.PureOps.Ideal.Laws

noncomputable section

namespace Cert.Gate

open Idealize.ShloMosaic

variable {F : FTy → Type} [FloatOps F]

abbrev S0 : Shape := ⟨0, ![]⟩
abbrev SP : Shape := ⟨2, ![32, 256]⟩
abbrev SW1 : Shape := ⟨2, ![16, 256]⟩
abbrev SW2 : Shape := ⟨2, ![256, 256]⟩
abbrev SY : Shape := ⟨2, ![32, 16]⟩
abbrev SYc : Shape := ⟨3, ![32, 16, 1]⟩
abbrev SYr : Shape := ⟨3, ![32, 1, 16]⟩
abbrev SO : Shape := ⟨3, ![32, 16, 16]⟩

/-- The shape facts the gate's layout operations take: a scalar spread to [32, 16] and to [32, 256]; a [32, 16]
    array set as a column and as a row of [32, 16, 16]; and [32, 16, 16] read as [32, 256]. -/
structure Facts : Prop where
  zeroY : S0.BroadcastsInDim SY (![] : Fin 0 → Fin SY.rank)
  col : SY.BroadcastsInDim SYc (![0, 1] : Fin 2 → Fin SYc.rank)
  row : SY.BroadcastsInDim SYr (![0, 2] : Fin 2 → Fin SYr.rank)
  colO : SYc.BroadcastsInDim SO (![0, 1, 2] : Fin 3 → Fin SO.rank)
  rowO : SYr.BroadcastsInDim SO (![0, 1, 2] : Fin 3 → Fin SO.rank)
  flat : SO.ShapeCasts SP
  oneP : S0.BroadcastsInDim SP (![] : Fin 0 → Fin SP.rank)

/-- The hidden layer: the pooled array times w1ᵀ, negative entries set to zero. -/
def hidden (D1 : DotDims SP SW1 SY) (h : Facts) (p : FVec F SP .f32) (w1 : FVec F SW1 .f32) : FVec F SY .f32 :=
  maximumf (Host.dotGeneral D1 none p w1) (broadcastInDim SY ![] h.zeroY (constant S0 .f32 0x00000000#32))

/-- The gate: the logistic of (the flattened outer square of the hidden layer) times w2ᵀ. -/
def gate (D1 : DotDims SP SW1 SY) (D2 : DotDims SP SW2 SP) (h : Facts)
    (p : FVec F SP .f32) (w1 : FVec F SW1 .f32) (w2 : FVec F SW2 .f32) : FVec F SP .f32 :=
  Host.divf (broadcastInDim SP ![] h.oneP (constant S0 .f32 0x3F800000#32))
    (addf (broadcastInDim SP ![] h.oneP (constant S0 .f32 0x3F800000#32))
      (Host.exp (Host.negf (Host.dotGeneral D2 none
        (shapeCast SP (mulf
          (broadcastInDim SO ![0, 1, 2] h.colO (broadcastInDim SYc ![0, 1] h.col (hidden D1 h p w1)))
          (broadcastInDim SO ![0, 1, 2] h.rowO (broadcastInDim SYr ![0, 2] h.row (hidden D1 h p w1)))) h.flat)
        w2))))

end Cert.Gate

end
-- ==== Proof.Glue.lean ====
/-
  The host operations between the two regions, read as a value. After region 0 the program multiplies the pooled
  array by w1ᵀ, clamps at zero, forms each row's outer square, flattens it, multiplies by w2ᵀ and takes the logistic:
  nineteen host operations in three stretches. What the last of them writes is the gate of what region 0 left in
  the pooled array and of the two weight arrays, which nothing has written since the launch. The input array, too,
  reaches region 1 as launched.
-/
import proofs.«179893_j36996848287772_1_alg».proof.Proof.Gen.KernelIdeal.Frame
import proofs.«179893_j36996848287772_1_alg».proof.Proof.Gate

noncomputable section

namespace Cert.KernelIdeal.GateValue

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The gate's shape facts are among the program's own. -/
theorem gateFacts : Cert.Gate.Facts :=
  ⟨Facts₀.bcast_S_S32x16, Facts₀.bcast_S32x16_S32x16x1_0_1, Facts₀.bcast_S32x16_S32x1x16_0_2, Facts₀.bcast_S32x16x1_S32x16x16_0_1_2, Facts₀.bcast_S32x1x16_S32x16x16_0_1_2, Facts₀.shapeCasts_S32x16x16_S32x256, Facts₀.bcast_S_S32x256⟩

/-- At region 1's entry the gate array holds the gate of the pooled array and the two weight arrays, each as it
    stood at region 0's exit. -/
theorem gate_arr (c : Dev nD) :
    W4 m ρ c (Proc.devRef .tc main_v15)
      = Cert.Gate.gate dot_S32x256_S16x256_S32x16_1_1_0_0_n_n dot_S32x256_S256x256_S32x256_1_1_0_0_n_n gateFacts
          (W1 m ρ c (Proc.devRef .tc main_v0)) (W1 m ρ c (Proc.devRef .tc main_arg1)) (W1 m ρ c (Proc.devRef .tc main_arg2)) := by
  show StableHlo.after hostOps1_2 (StableHlo.after hostOps1_1 (StableHlo.after hostOps1 (W1 m ρ c))) (Proc.devRef .tc main_v15) = _
  after_results
  rfl

/-- Region 0 writes neither weight array: each stands at its exit as launched. -/
theorem W1_arg1 (c : Dev nD) : W1 m ρ c (Proc.devRef .tc main_arg1) = m ((c : Thread nD τ).loc main_arg1) :=
  (W1_of_ne m ρ c main_arg1 (by decide)).trans rfl
theorem W1_arg2 (c : Dev nD) : W1 m ρ c (Proc.devRef .tc main_arg2) = m ((c : Thread nD τ).loc main_arg2) :=
  (W1_of_ne m ρ c main_arg2 (by decide)).trans rfl

/-- The pooled array at region 0's exit is what the region's write-backs leave. -/
theorem W1_pooled (c : Dev nD) : W1 m ρ c (Proc.devRef .tc main_v0) = (dat0 (V0 m ρ) c).arrAt 1 cfg0.N :=
  W1_arr m ρ c 1

/-- The input array reaches region 1 as launched: region 1 only reads it, and from there the fold walks back. -/
theorem W4_arg0 (c : Dev nD) : W4 m ρ c (Proc.devRef .tc main_arg0) = m ((c : Thread nD τ).loc main_arg0) :=
  (((W5_arr m ρ c 0).trans (((dat1 (V4 m ρ) c).arrAt_in 0 rfl _).trans (A_eq1 (V4 m ρ) c 0))).symm).trans (W5_main_arg0 m ρ c)

/-- The input array at region 0's entry is the launch memory's. -/
theorem V0_arg0 (c : Dev nD) : V0 m ρ c main_arg0 = m ((c : Thread nD τ).loc main_arg0) := rfl

/-- The result array at the return is what region 1's write-backs leave. -/
theorem W5_result (c : Dev nD) : W5 m ρ c (Proc.devRef .tc main_v16) = (dat1 (V4 m ρ) c).arrAt 2 cfg1.N :=
  W5_arr m ρ c 2

end Cert.KernelIdeal.GateValue

end
-- ==== Proof.PoolLaw.lean ====
/-
  The pooling law. A row (b, ch) of a [32, 256, 64, 64] array is summed over its 64 × 64 plane in two ways:
  slab by slab — eight slabs of 8 × 64, each summed over its lanes and then over its rows, the slabs added up
  in order, the total scaled by 2⁻¹² — and at once, over both axes, the total divided by 4096. On the extended
  reals the two agree: addition is commutative and associative there, so the regrouping of the double sum needs
  no finiteness, and division by the real 4096 is multiplication by the real 1/4096 on every extended real.
-/
import Idealize.ShloMosaic.PureOps.Ideal.Laws
import Idealize.ShloMosaic.Lib.ValueIdx
import Idealize.ShloMosaic.Lib.Pipeline.Value

noncomputable section

namespace Cert.PoolLaw

open Idealize.ShloMosaic

/-- The input's shape, the pooled shape, and the rank-zero shape of a scalar constant. -/
abbrev SX : Shape := ⟨4, ![32, 256, 64, 64]⟩
abbrev SP : Shape := ⟨2, ![32, 256]⟩
abbrev S0 : Shape := ⟨0, ![]⟩

/-- Slab `s` (rows 8s … 8s + 7 of the plane) of row (b, ch), summed over its lanes and then its rows; nothing past the eighth slab. -/
def slab (x : SX.Idx → EReal) (b : Fin 32) (ch : Fin 256) (s : ℕ) : EReal :=
  if hs : s < 8 then ∑ h : Fin 8, ∑ w : Fin 64, x (ValueIdx.ix4 b ch (⟨8 * s + h.val, by omega⟩ : Fin 64) w) else 0

/-- The slab-by-slab mean: the eight slabs' sums added up, times the word of 2⁻¹². -/
def kpool (x : SX.Idx → EReal) : SP.Idx → EReal := fun j =>
  (∑ s ∈ Finset.range 8, slab x (j 0) (j 1) s) * Ideal.ofBits .f32 0x39800000#32

/-- Dropping the two plane axes keeps the first coordinate. -/
theorem drop_val0 (h' : SX.ReducesTo [2, 3] SP) (i : SX.Idx) : (h'.drop i 0 : ℕ) = (i 0 : ℕ) :=
  Shape.ReducesTo.drop_apply_val_of_eq h' i 0 0

/-- Dropping the two plane axes keeps the second coordinate. -/
theorem drop_val1 (h' : SX.ReducesTo [2, 3] SP) (i : SX.Idx) : (h'.drop i 1 : ℕ) = (i 1 : ℕ) :=
  Shape.ReducesTo.drop_apply_val_of_eq h' i 1 1

/-- Dropping the two plane axes of (b, ch, H, W) leaves (b, ch). -/
theorem drop_ix4 (h' : SX.ReducesTo [2, 3] SP) (j : SP.Idx) (H W : Fin 64) :
    h'.drop (ValueIdx.ix4 (j 0) (j 1) H W) = j := by
  funext b
  match b with
  | ⟨0, _⟩ => exact Fin.ext (drop_val0 h' _)
  | ⟨1, _⟩ => exact Fin.ext (drop_val1 h' _)

/-- An index that drops to (b, ch) is (b, ch, H, W) at its own two plane coordinates. -/
theorem ix4_of_drop (h' : SX.ReducesTo [2, 3] SP) (j : SP.Idx) (i : SX.Idx) (hi : h'.drop i = j) :
    ValueIdx.ix4 (j 0) (j 1) (i 2) (i 3) = i := by
  subst hi
  funext a
  match a with
  | ⟨0, _⟩ => exact Fin.ext (drop_val0 h' i)
  | ⟨1, _⟩ => exact Fin.ext (drop_val1 h' i)
  | ⟨2, _⟩ => rfl
  | ⟨3, _⟩ => rfl

/-- The indices that drop to (b, ch) are in bijection with the plane, i ↦ (i 2, i 3) one way and
    (H, W) ↦ (b, ch, H, W) back; so the sum over them is the double sum over the plane's rows and lanes. -/
theorem sum_filter_plane (x : SX.Idx → EReal) (h' : SX.ReducesTo [2, 3] SP) (j : SP.Idx) :
    ∑ i ∈ Finset.univ.filter (fun i => h'.drop i = j), x i
      = ∑ H : Fin 64, ∑ W : Fin 64, x (ValueIdx.ix4 (j 0) (j 1) H W) := by
  rw [← Fintype.sum_prod_type' (f := fun (H : Fin 64) (W : Fin 64) => x (ValueIdx.ix4 (j 0) (j 1) H W))]
  refine Finset.sum_nbij' (fun i => ((i 2, i 3) : Fin 64 × Fin 64)) (fun p => ValueIdx.ix4 (j 0) (j 1) p.1 p.2)
    (fun _ _ => Finset.mem_univ _) ?_ ?_ ?_ ?_
  · intro p _
    exact Finset.mem_filter.2 ⟨Finset.mem_univ _, drop_ix4 h' j p.1 p.2⟩
  · intro i hi
    exact ix4_of_drop h' j i (Finset.mem_filter.1 hi).2
  · intro p _
    rfl
  · intro i hi
    exact congrArg x (ix4_of_drop h' j i (Finset.mem_filter.1 hi).2).symm

/-- Row 8s + h of the plane as the pair (slab s, row h within the slab): the slab is the major factor,
    and quotient and remainder by 8 go back. -/
def slabEquiv : Fin 8 × Fin 8 ≃ Fin 64 where
  toFun p := ⟨8 * p.1.val + p.2.val, by omega⟩
  invFun H := (⟨H.val / 8, by omega⟩, ⟨H.val % 8, Nat.mod_lt _ (by norm_num)⟩)
  left_inv p := Prod.ext (Fin.ext (show (8 * p.1.val + p.2.val) / 8 = p.1.val by omega))
    (Fin.ext (show (8 * p.1.val + p.2.val) % 8 = p.2.val by omega))
  right_inv H := Fin.ext (show 8 * (H.val / 8) + H.val % 8 = H.val by omega)

/-- The eight slabs' sums, added up, are the sum over the whole plane: the sum over rows H = 8s + h is the
    sum over the pairs (s, h), which is the iterated sum, slab by slab. -/
theorem sum_slabs (x : SX.Idx → EReal) (b : Fin 32) (ch : Fin 256) :
    ∑ s ∈ Finset.range 8, slab x b ch s = ∑ H : Fin 64, ∑ W : Fin 64, x (ValueIdx.ix4 b ch H W) := by
  rw [Finset.sum_range,
    ← Equiv.sum_comp slabEquiv (fun H : Fin 64 => ∑ W : Fin 64, x (ValueIdx.ix4 b ch H W)),
    Fintype.sum_prod_type]
  refine Finset.sum_congr rfl fun s _ => ?_
  rw [slab, dif_pos s.isLt]
  rfl

/-- The word with exponent field 115 and no fraction bits is 2⁻¹² = 1/4096. -/
theorem word_inv4096 : Ideal.ofBits .f32 0x39800000#32 = ((1 / 4096 : ℝ) : EReal) := by
  simp [Ideal.ofBits, Ideal.ieee, -EReal.coe_mul]; norm_num

/-- The word with exponent field 139 and no fraction bits is 2¹² = 4096. -/
theorem word_4096 : Ideal.ofBits .f32 0x45800000#32 = ((4096 : ℝ) : EReal) := by
  simp [Ideal.ofBits, Ideal.ieee, -EReal.coe_mul]; norm_num

/-- The slab-by-slab mean is the host's mean: the sum over both plane axes from the zero word, divided by the word of 4096. -/
theorem kpool_eq_mean (x : FVec Ideal SX .f32) (h' : SX.ReducesTo [2, 3] SP) (hu : 0 < S0.numel)
    (hb : S0.BroadcastsInDim SP (![] : Fin 0 → Fin SP.rank)) :
    kpool x = Host.divf (Host.reduceAdd (F := Ideal) x (constant (F := Ideal) S0 .f32 0x00000000#32) h' hu)
      (broadcastInDim SP ![] hb (constant (F := Ideal) S0 .f32 0x45800000#32)) := by
  funext j
  -- at (b, ch) the host's side is: the zero word plus the sum over the indices dropping to (b, ch), divided by the word of 4096
  show (∑ s ∈ Finset.range 8, slab x (j 0) (j 1) s) * Ideal.ofBits .f32 0x39800000#32
      = Ideal.div (Ideal.ofBits .f32 0x00000000#32 + ∑ i ∈ Finset.univ.filter (fun i => h'.drop i = j), x i)
          (Ideal.ofBits .f32 0x45800000#32)
  rw [word_inv4096, word_4096, Ideal.div_coe (by norm_num : (4096 : ℝ) ≠ 0), Ideal.ofBits_zero_f32, zero_add,
    sum_filter_plane]
  exact congrArg (fun t : EReal => t * ((1 / 4096 : ℝ) : EReal)) (sum_slabs x (j 0) (j 1))

end Cert.PoolLaw

end
-- ==== Proof.Pool.lean ====
/-
  Region 0, the pooling kernel, read as a value. Its grid is 2 × 8: the first coordinate picks sixteen batch
  rows, the second one slab of eight rows of the 64 × 64 plane. The output block of sixteen batch rows is
  revisited over the eight slabs: reset to zero at the first, each slab's two lane sums added in, and at the
  eighth the total scaled by 2⁻¹² before the block is written back. So the array the region leaves is, row by
  row, the slab-by-slab mean of the input as the region found it.
-/
import proofs.«179893_j36996848287772_1_alg».proof.Proof.Gen.KernelIdeal.Frame
import proofs.«179893_j36996848287772_1_alg».proof.Proof.PoolLaw

noncomputable section

namespace Cert.KernelIdeal.PoolValue

open Cert.KernelIdeal Cert.KernelIdeal.Gen Idealize.ShloMosaic Idealize.ShloMosaic.TcCoe Idealize.SL.Sem
open Idealize.ShloMosaic.Tactic Idealize.ShloMosaic.ValueIdx
open Idealize.ShloMosaic.Pipeline (Dat)

/-! ## What each control case leaves in the output block, as the body's arithmetic -/

section Pieces

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- Neither the first nor the last slab: the block's contents plus the slab's two lane sums. -/
theorem out_B (c : Dev nD) (i : grid0.Coords) (a2 : Memref sig .tc .vmem S16x256x8x64 .f32) (h2 : a2.IsWhole)
    (a3 : Memref sig .tc .vmem S16x256 .f32) (h3 : a3.IsWhole) (hc0 : ¬cond0_0 i) (hc1 : ¬cond0_1 i)
    (x : Vec F S16x256x8x64 .f32) (xo : Vec F S16x256 .f32) :
    out0_B_1 c i a2 h2 a3 h3 hc0 hc1 x xo = k0_pay2 x xo := by
  unfold out0_B_1
  rw [View.read_writes_eq_canon _ _ _ (cover0_B_1 c i a2 h2 a3 h3 hc0 hc1 x xo)]
  unfold kernelRun0_B
  dsimp only
  sl_unfold_words
  rw [View.canon_unit_zero hz2]
  simp only [View.readAt_eq_ld, h2.read_unread, h3.read_unread, View.ld_unit_zero (S := S16x256x8x64) hz4,
    View.ld_unit_zero (S := S16x256) hz2]

/-- The first slab: the zero block plus the slab's two lane sums. -/
theorem out_A (c : Dev nD) (i : grid0.Coords) (a2 : Memref sig .tc .vmem S16x256x8x64 .f32) (h2 : a2.IsWhole)
    (a3 : Memref sig .tc .vmem S16x256 .f32) (h3 : a3.IsWhole) (hc0 : cond0_0 i) (hc1 : ¬cond0_1 i)
    (x : Vec F S16x256x8x64 .f32) :
    out0_A_1 c i a2 h2 a3 h3 hc0 hc1 x = k0_pay2 x k0_pay1 := by
  unfold out0_A_1
  rw [View.read_writes_eq_canon _ _ _ (cover0_A_1 c i a2 h2 a3 h3 hc0 hc1 x)]
  unfold kernelRun0_A
  dsimp only
  sl_unfold_words
  rw [View.canon_cons_unit_zero (S := S16x256) hz2, View.readCov_unit_zero (S := S16x256) _ hz2]
  simp only [View.readAt_eq_ld, h2.read_unread, View.ld_unit_zero (S := S16x256x8x64) hz4]

/-- The last slab: the contents plus the slab's sums, then scaled. -/
theorem out_C (c : Dev nD) (i : grid0.Coords) (a2 : Memref sig .tc .vmem S16x256x8x64 .f32) (h2 : a2.IsWhole)
    (a3 : Memref sig .tc .vmem S16x256 .f32) (h3 : a3.IsWhole) (hc0 : ¬cond0_0 i) (hc1 : cond0_1 i)
    (x : Vec F S16x256x8x64 .f32) (xo : Vec F S16x256 .f32) :
    out0_C_1 c i a2 h2 a3 h3 hc0 hc1 x xo = k0_pay3 (k0_pay2 x xo) := by
  unfold out0_C_1
  rw [View.read_writes_eq_canon _ _ _ (cover0_C_1 c i a2 h2 a3 h3 hc0 hc1 x xo)]
  unfold kernelRun0_C
  dsimp only
  sl_unfold_words
  rw [View.canon_cons_unit_zero (S := S16x256) hz2, View.readCov_unit_zero (S := S16x256) _ hz2]
  simp only [View.readAt_eq_ld, h2.read_unread, h3.read_unread, View.ld_unit_zero (S := S16x256x8x64) hz4,
    View.ld_unit_zero (S := S16x256) hz2]

end Pieces

/-! ## The body's arithmetic at an entry, over the extended reals -/

section Payloads

/-- A row coordinate inserted into (r, ch) names (r, ch, h) of the block summed over its lanes; -/
theorem lift3 (r : Fin 16) (ch : Fin 256) (h : Fin 8) :
    reduces_S16x256x8_S16x256.lift (ix2 r ch) h = ix3 r ch h := by
  funext a; match a with | ⟨0, _⟩ => rfl | ⟨1, _⟩ => rfl | ⟨2, _⟩ => rfl

/-- and a lane inserted into (r, ch, h) names the block's entry (r, ch, h, w). -/
theorem lift4 (r : Fin 16) (ch : Fin 256) (h : Fin 8) (w : Fin 64) :
    reduces_S16x256x8x64_S16x256x8.lift (ix3 r ch h) w = ix4 r ch h w := by
  funext a; match a with | ⟨0, _⟩ => rfl | ⟨1, _⟩ => rfl | ⟨2, _⟩ => rfl | ⟨3, _⟩ => rfl

/-- The reset block is zero at every entry. -/
theorem pay1_apply (j : S16x256.Idx) : (k0_pay1 (F := Ideal)) j = 0 :=
  Ideal.ofBits_zero_f32

/-- The update at entry (r, ch): what was there plus the slab's sum, lanes first and then its eight rows. -/
theorem pay2_apply (x : FVec Ideal S16x256x8x64 .f32) (acc : FVec Ideal S16x256 .f32) (r : Fin 16) (ch : Fin 256) :
    k0_pay2 (F := Ideal) x acc (ix2 r ch) = acc (ix2 r ch) + ∑ h : Fin 8, ∑ w : Fin 64, x (ix4 r ch h w) := by
  unfold k0_pay2
  refine (addf_apply _ _ (ix2 r ch)).trans ?_
  refine congrArg₂ (· + ·) (congrFun (shapeCast_self acc _) (ix2 r ch)) ?_
  refine (Ideal.multiReduction_add_single _ 0x00000000#32 reduces_S16x256x8_S16x256 (.inl rfl) rfl (ix2 r ch)).trans ?_
  refine Finset.sum_congr rfl fun h _ => ?_
  refine (Ideal.multiReduction_add_single x 0x00000000#32 reduces_S16x256x8x64_S16x256x8 (.inl rfl) rfl _).trans ?_
  refine Finset.sum_congr rfl fun w _ => ?_
  exact congrArg x ((congrArg (fun j => reduces_S16x256x8x64_S16x256x8.lift j w) (lift3 r ch h)).trans (lift4 r ch h w))

/-- The scaling at an entry: times the word of 2⁻¹². -/
theorem pay3_apply (v : FVec Ideal S16x256 .f32) (j : S16x256.Idx) :
    k0_pay3 (F := Ideal) v j = v j * Ideal.ofBits .f32 0x39800000#32 := by
  unfold k0_pay3
  refine (mulf_apply _ _ j).trans ?_
  exact congrArg (· * Ideal.ofBits .f32 0x39800000#32) (congrFun (shapeCast_self v _) j)

end Payloads

variable (V : (c : Dev nD) → (b : Ref sig .tc) → Buf (Elt Ideal) ((c : Thread nD τ).loc b))

/-! ## The block a point reads -/

/-- The input array as the region finds it, and the block of it a point reads, at their literal types. -/
abbrev xarr (c : Dev nD) : FVec Ideal S32x256x64x64 .f32 := V c main_arg0
abbrev xblk (c : Dev nD) (t : Fin cfg0.N) : FVec Ideal S16x256x8x64 .f32 := iblk0 V c 0 t

/-- The input block's index at point t is (t / 8, 0, t % 8, 0); -/
theorem idx_in : ∀ t : Fin cfg0.N, win0_0.index t (0 : Fin 4) = t.val / 8 ∧ win0_0.index t (1 : Fin 4) = 0
    ∧ win0_0.index t (2 : Fin 4) = t.val % 8 ∧ win0_0.index t (3 : Fin 4) = 0 :=
  (by decide +kernel : ∀ t : Fin grid0.N, win0_0.index t (0 : Fin 4) = t.val / 8 ∧ win0_0.index t (1 : Fin 4) = 0
    ∧ win0_0.index t (2 : Fin 4) = t.val % 8 ∧ win0_0.index t (3 : Fin 4) = 0)

/-- the output block's is (t / 8, 0). -/
theorem idx_out : ∀ t : Fin cfg0.N, win0_1.index t (0 : Fin 2) = t.val / 8 ∧ win0_1.index t (1 : Fin 2) = 0 :=
  (by decide +kernel : ∀ t : Fin grid0.N, win0_1.index t (0 : Fin 2) = t.val / 8 ∧ win0_1.index t (1 : Fin 2) = 0)

/-- Block row r at point t is batch row 16·(t / 8) + r of the array, -/
def brow (t : Fin cfg0.N) (r : Fin 16) : Fin 32 :=
  ⟨16 * (t.val / 8) + r.val, by have := r.isLt; have : t.val < 16 := lt_of_lt_of_eq t.isLt N_0; omega⟩

/-- and slab row h there is plane row 8·(t % 8) + h. -/
def prow (t : Fin cfg0.N) (h : Fin 8) : Fin 64 :=
  ⟨8 * (t.val % 8) + h.val, by have := h.isLt; omega⟩

/-- The block read at a point, entry by entry: the array at the batch row and plane row the point's index gives. -/
theorem xblk_apply (c : Dev nD) (t : Fin cfg0.N) (r : Fin 16) (ch : Fin 256) (h : Fin 8) (w : Fin 64) :
    xblk V c t (ix4 r ch h w) = xarr V c (ix4 (brow t r) ch (prow t h) w) := by
  obtain ⟨e0, e1, e2, e3⟩ := idx_in t
  show ((cfg0.win 0).blk t).view.read (Elt Ideal) (V c (Pipeline.arrRef spec0 0)) (ix4 r ch h w) = _
  rw [View.read_apply]
  show V c main_arg0 _ = V c main_arg0 _
  congr 1
  funext a; apply Fin.ext
  match a with
  | ⟨0, _⟩ => show win0_0.index t (0 : Fin 4) * 16 + 1 * r.val = 16 * (t.val / 8) + r.val; rw [e0]; omega
  | ⟨1, _⟩ => show win0_0.index t (1 : Fin 4) * 256 + 1 * ch.val = ch.val; rw [e1]; omega
  | ⟨2, _⟩ => show win0_0.index t (2 : Fin 4) * 8 + 1 * h.val = 8 * (t.val % 8) + h.val; rw [e2]; omega
  | ⟨3, _⟩ => show win0_0.index t (3 : Fin 4) * 64 + 1 * w.val = w.val; rw [e3]; omega

/-! ## The run of eight points over one output block, as a fold -/

/-- A point's slab at an output entry: the sum over the block's eight rows of the sums over its lanes; nothing past the grid. -/
def addend (c : Dev nD) (n : ℕ) : S16x256.Idx → EReal := fun i =>
  if hn : n < cfg0.N then ∑ h : Fin 8, ∑ w : Fin 64, xblk V c ⟨n, hn⟩ (ix4 (n0 := 16) (n1 := 256) (i 0) (i 1) h w) else 0

/-- What the first point of a run leaves: the zero block plus its slab. -/
def reset (c : Dev nD) : (n : ℕ) → n < cfg0.N → FVec Ideal S16x256 .f32 := fun n h =>
  k0_pay2 (F := Ideal) (xblk V c ⟨n, h⟩) (k0_pay1 (F := Ideal))

/-- What a later point makes of what the point before left: its slab added, and at the run's last point the total scaled. -/
def step (c : Dev nD) : (n : ℕ) → n < cfg0.N → FVec Ideal S16x256 .f32 → FVec Ideal S16x256 .f32 := fun n h acc =>
  if n % 8 = 7 then k0_pay3 (F := Ideal) (k0_pay2 (F := Ideal) (xblk V c ⟨n, h⟩) acc) else k0_pay2 (F := Ideal) (xblk V c ⟨n, h⟩) acc

theorem outs_reset (c : Dev nD) (n : ℕ) (h : n < cfg0.N) (h0 : n % 8 = 0) : outsAt0 V c n h = reset V c n h := by
  have h1 : ¬(⟨n, h⟩ : Fin cfg0.N).val % 8 = 7 := by dsimp only; omega
  rw [outsAt0_A V c ⟨n, h⟩ h0 h1]
  exact out_A c _ _ _ _ _ _ _ _

theorem outs_step (c : Dev nD) (n : ℕ) (h : n + 1 < cfg0.N) (hne : ¬(n + 1) % 8 = 0) :
    outsAt0 V c (n + 1) h = step V c (n + 1) h (outsAt0 V c n (Nat.lt_of_succ_lt h)) := by
  by_cases h7 : (n + 1) % 8 = 7
  · rw [outsAt0_C V c ⟨n + 1, h⟩ hne h7]
    unfold step; rw [if_pos h7]
    exact out_C c _ _ _ _ _ _ _ _ _
  · rw [outsAt0_B V c ⟨n + 1, h⟩ hne h7]
    unfold step; rw [if_neg h7]
    exact out_B c _ _ _ _ _ _ _ _ _

/-- So at the last point of run q the block holds the run's fold. -/
theorem outs_fold (c : Dev nD) (q : ℕ) (h : 8 * q + 7 < cfg0.N) :
    outsAt0 V c (8 * q + 7) h = Pipeline.accAt (reset V c) (step V c) (8 * q) 7 h :=
  Pipeline.eq_accAt (outsAt0 V c) 8 (reset V c) (step V c) (outs_reset V c) (outs_step V c) q 7 (by omega) h

/-- The reset at an entry: zero plus the point's slab. -/
theorem reset_apply (c : Dev nD) (n : ℕ) (h : n < cfg0.N) (i : S16x256.Idx) :
    reset V c n h i = 0 + addend V c n i := by
  obtain ⟨r, ch, rfl⟩ : ∃ (r : Fin 16) (ch : Fin 256), i = ix2 r ch := ⟨i 0, i 1, eq_ix2 i⟩
  unfold reset addend
  rw [dif_pos h]
  refine (pay2_apply (xblk V c ⟨n, h⟩) (k0_pay1 (F := Ideal)) r ch).trans ?_
  rw [pay1_apply]

/-- A step that is not a run's last, at an entry: what was there plus the point's slab. -/
theorem step_apply (c : Dev nD) (n : ℕ) (h : n < cfg0.N) (h7 : ¬n % 8 = 7) (acc : FVec Ideal S16x256 .f32)
    (i : S16x256.Idx) : step V c n h acc i = acc i + addend V c n i := by
  obtain ⟨r, ch, rfl⟩ : ∃ (r : Fin 16) (ch : Fin 256), i = ix2 r ch := ⟨i 0, i 1, eq_ix2 i⟩
  unfold step addend
  rw [if_neg h7, dif_pos h]
  exact pay2_apply (xblk V c ⟨n, h⟩) acc r ch

/-- A run's last step, at an entry: what was there plus the point's slab, times the word of 2⁻¹². -/
theorem step_last (c : Dev nD) (n : ℕ) (h : n < cfg0.N) (h7 : n % 8 = 7) (acc : FVec Ideal S16x256 .f32)
    (r : Fin 16) (ch : Fin 256) :
    step V c n h acc (ix2 r ch) = (acc (ix2 r ch) + addend V c n (ix2 r ch)) * Ideal.ofBits .f32 0x39800000#32 := by
  unfold step addend
  rw [if_pos h7, dif_pos h]
  refine (pay3_apply _ (ix2 r ch)).trans ?_
  exact congrArg (· * Ideal.ofBits .f32 0x39800000#32) (pay2_apply (xblk V c ⟨n, h⟩) acc r ch)

/-- The fold of run q before its last step: zero plus the slabs of its points so far. -/
theorem acc_apply (c : Dev nD) (q j : ℕ) (hj : j ≤ 6) (h : 8 * q + j < cfg0.N) (i : S16x256.Idx) :
    Pipeline.accAt (reset V c) (step V c) (8 * q) j h i
      = 0 + ∑ s ∈ Finset.range (j + 1), addend V c (8 * q + s) i :=
  Pipeline.accAt_add_apply (reset V c) (step V c) (fun _ => 0) (addend V c) (8 * q) 6
    (fun h i => reset_apply V c (8 * q) h i)
    (fun n h acc i hb he => step_apply V c n h (by omega) acc i) j hj h i

/-- A point's slab is the array's: point 8q + s at block row r sums plane rows 8s … 8s + 7 of batch row 16q + r. -/
theorem addend_eq_slab (c : Dev nD) (q s : ℕ) (hs : s < 8) (hn : 8 * q + s < cfg0.N) (b : Fin 32) (r : Fin 16)
    (hb : b.val = 16 * q + r.val) (ch : Fin 256) :
    addend V c (8 * q + s) (ix2 r ch) = Cert.PoolLaw.slab (xarr V c) b ch s := by
  unfold addend Cert.PoolLaw.slab
  rw [dif_pos hn, dif_pos hs]
  refine Finset.sum_congr rfl fun h _ => Finset.sum_congr rfl fun w _ => ?_
  refine (xblk_apply V c ⟨8 * q + s, hn⟩ r ch h w).trans ?_
  have e1 : brow ⟨8 * q + s, hn⟩ r = b := Fin.ext (by show 16 * ((8 * q + s) / 8) + r.val = b.val; omega)
  have e2 : prow ⟨8 * q + s, hn⟩ h = (⟨8 * s + h.val, by have := h.isLt; omega⟩ : Fin 64) :=
    Fin.ext (by show 8 * ((8 * q + s) % 8) + h.val = 8 * s + h.val; omega)
  rw [e1, e2]

/-- What a run's last point leaves at entry (r, ch): the slab-by-slab mean of batch row 16·(t / 8) + r. -/
theorem outs_flush_apply (c : Dev nD) (t : Fin cfg0.N) (h7 : t.val % 8 = 7) (r : Fin 16) (ch : Fin 256) :
    outsAt0 V c t.val t.isLt (ix2 r ch) = Cert.PoolLaw.kpool (xarr V c) (ix2 (brow t r) ch) := by
  obtain ⟨n, hn⟩ := t
  dsimp only at h7 ⊢
  obtain ⟨q, rfl⟩ : ∃ q, n = 8 * q + 7 := ⟨n / 8, by omega⟩
  have hN : 8 * q + 7 < 16 := lt_of_lt_of_eq hn N_0
  rw [outs_fold V c q hn]
  show step V c (8 * q + (6 + 1)) hn (Pipeline.accAt (reset V c) (step V c) (8 * q) 6 (Nat.lt_of_succ_lt hn)) (ix2 r ch) = _
  refine (step_last V c (8 * q + 7) hn (by omega) _ r ch).trans ?_
  rw [acc_apply V c q 6 (le_refl 6) (Nat.lt_of_succ_lt hn) (ix2 r ch), zero_add,
    ← Finset.sum_range_succ (fun s => addend V c (8 * q + s) (ix2 r ch)) 7]
  show _ = (∑ s ∈ Finset.range 8, Cert.PoolLaw.slab (xarr V c) (brow ⟨8 * q + 7, hn⟩ r) ch s) * Ideal.ofBits .f32 0x39800000#32
  refine congrArg (· * Ideal.ofBits .f32 0x39800000#32) (Finset.sum_congr rfl fun s hs => ?_)
  have hs8 : s < 8 := Finset.mem_range.mp hs
  exact addend_eq_slab V c q s hs8 (by rw [show cfg0.N = 16 from N_0]; omega) (brow ⟨8 * q + 7, hn⟩ r) r
    (by show 16 * ((8 * q + 7) / 8) + r.val = 16 * q + r.val; omega) ch

/-! ## From the flushed blocks to the array -/

/-- What a flushing point writes back is its block of the slab-by-slab mean of the input array. -/
theorem flushed_eq (c : Dev nD) (t : Fin cfg0.N) (hf : (cfg0.win 1).flush t = true) :
    (dat0 V c).flushed 1 t = ((cfg0.win 1).blk t).view.read (Elt Ideal) (Cert.PoolLaw.kpool (V c main_arg0)) := by
  have h7 : t.val % 8 = 7 := (flush0_1 t).mp hf
  obtain ⟨e0, e1⟩ := idx_out t
  show (cfg0.win 1).cut (grid0.coords t) ((dat0 V c).after 1 t) = _
  rw [after0_1]
  funext y
  rw [View.read_apply]
  show outsAt0 V c t.val t.isLt ((cfg0.win 1).xinj (grid0.coords t) y)
    = Cert.PoolLaw.kpool (V c main_arg0) (((cfg0.win 1).blk t).view.emb y)
  have hy : (cfg0.win 1).xinj (grid0.coords t) y
      = ix2 (⟨(y 0).val, (y 0).isLt⟩ : Fin 16) (⟨(y 1).val, (y 1).isLt⟩ : Fin 256) := by
    funext a; match a with | ⟨0, _⟩ => rfl | ⟨1, _⟩ => rfl
  have he : ((cfg0.win 1).blk t).view.emb y
      = ix2 (brow t ⟨(y 0).val, (y 0).isLt⟩) (⟨(y 1).val, (y 1).isLt⟩ : Fin 256) := by
    funext a; apply Fin.ext
    match a with
    | ⟨0, _⟩ => show win0_1.index t (0 : Fin 2) * 16 + 1 * (y 0).val = 16 * (t.val / 8) + (y 0).val; rw [e0]; omega
    | ⟨1, _⟩ => show win0_1.index t (1 : Fin 2) * 256 + 1 * (y 1).val = (y 1).val; rw [e1]; omega
  rw [hy, he]
  exact outs_flush_apply V c t h7 _ _

/-- After region 0 the pooled array holds the slab-by-slab mean of the input array as the region found it. -/
theorem pooled_arr (c : Dev nD) :
    (dat0 (F := Ideal) V c).arrAt 1 cfg0.N = Cert.PoolLaw.kpool (V c main_arg0) :=
  (dat0 V c).arrAt_eq_of_cover 1 (Cert.PoolLaw.kpool (V c main_arg0)) (flushed_eq V c) fun i => by
    have hi0 : (i 0).val < 32 := (i 0).isLt
    have hi1 : (i 1).val < 256 := (i 1).isLt
    obtain ⟨t, ht⟩ : ∃ t : Fin cfg0.N, t.val = 8 * ((i 0).val / 16) + 7 :=
      ⟨⟨8 * ((i 0).val / 16) + 7, by rw [show cfg0.N = 16 from N_0]; omega⟩, rfl⟩
    obtain ⟨e0, e1⟩ := idx_out t
    refine ⟨t, (flush0_1 t).mpr (by omega), ?_⟩
    show i ∈ ((View.whole main_v0).slice (win0_1.rect t)).set
    rw [View.set_slice_whole, Rect.mem_set_unit]
    intro a
    match a with
    | ⟨0, _⟩ =>
      show win0_1.index t (0 : Fin 2) * 16 ≤ (i 0).val ∧ (i 0).val < win0_1.index t (0 : Fin 2) * 16 + 16
      rw [e0]; omega
    | ⟨1, _⟩ =>
      show win0_1.index t (1 : Fin 2) * 256 ≤ (i 1).val ∧ (i 1).val < win0_1.index t (1 : Fin 2) * 256 + 256
      rw [e1]; omega

end Cert.KernelIdeal.PoolValue

end
-- ==== Proof.ScaleLaw.lean ====
/-
  The last step of both programs: every element of the [32, 256, 64, 64] input is multiplied by the gate of its
  row (b, ch), a [32, 256] array. The host spells the gate's spreading as two broadcasts, first to
  [32, 256, 1, 1] and then along the plane; read at an index it is the gate at the index's first two coordinates.
-/
import Idealize.ShloMosaic.PureOps.Ideal.Laws
import Idealize.ShloMosaic.Lib.ValueIdx
import Idealize.ShloMosaic.Lib.Pipeline.Value

noncomputable section

namespace Cert.ScaleLaw

open Idealize.ShloMosaic

abbrev SX : Shape := ⟨4, ![32, 256, 64, 64]⟩
abbrev SP : Shape := ⟨2, ![32, 256]⟩
abbrev SP11 : Shape := ⟨4, ![32, 256, 1, 1]⟩

/-- The input scaled row by row: element (b, ch, h, w) times the gate at (b, ch). -/
def scaleBy (x : SX.Idx → EReal) (s : SP.Idx → EReal) : SX.Idx → EReal := fun i =>
  x i * s (ValueIdx.ix2 (i 0) (i 1))

/-- The host's product with the twice-broadcast gate is the row-by-row scaling. -/
theorem mulf_bcast_eq_scaleBy (x : FVec Ideal SX .f32) (s : FVec Ideal SP .f32)
    (h2 : SP.BroadcastsInDim SP11 (![0, 1] : Fin 2 → Fin SP11.rank))
    (h4 : SP11.BroadcastsInDim SX (![0, 1, 2, 3] : Fin 4 → Fin SX.rank)) :
    mulf x (broadcastInDim SX ![0, 1, 2, 3] h4 (broadcastInDim SP11 ![0, 1] h2 s)) = scaleBy x s := by
  funext i
  -- the product is taken element by element; the outer broadcast keeps the first two coordinates and
  -- reads the two unit axes at 0, the inner one reads the gate at those two coordinates
  have outer : broadcastInDim SX ![0, 1, 2, 3] h4 (broadcastInDim SP11 ![0, 1] h2 s) i
      = broadcastInDim SP11 ![0, 1] h2 s (ValueIdx.ix4 (i 0) (i 1) (0 : Fin 1) (0 : Fin 1)) :=
    broadcastInDim_apply ![0, 1, 2, 3] h4 _ i (ValueIdx.ix4 (i 0) (i 1) (0 : Fin 1) (0 : Fin 1)) fun a => by
      match a with
      | ⟨0, _⟩ => rfl
      | ⟨1, _⟩ => rfl
      | ⟨2, _⟩ => rfl
      | ⟨3, _⟩ => rfl
  have inner : broadcastInDim SP11 ![0, 1] h2 s (ValueIdx.ix4 (i 0) (i 1) (0 : Fin 1) (0 : Fin 1))
      = s (ValueIdx.ix2 (i 0) (i 1)) :=
    broadcastInDim_apply ![0, 1] h2 s _ (ValueIdx.ix2 (i 0) (i 1)) fun a => by
      match a with
      | ⟨0, _⟩ => rfl
      | ⟨1, _⟩ => rfl
  show x i * broadcastInDim SX ![0, 1, 2, 3] h4 (broadcastInDim SP11 ![0, 1] h2 s) i = x i * s (ValueIdx.ix2 (i 0) (i 1))
  rw [outer, inner]

end Cert.ScaleLaw

end
-- ==== Proof.Scale.lean ====
/-
  Region 1, the scaling kernel, read as a value. Its grid is 4 × 2 × 4 over blocks of 8 batch rows, 128
  channels and 16 plane rows; each point multiplies its block of the input by its block of the gate, spread
  along the plane. The blocks tile the array and no point revisits another's, so the array the region leaves
  is the input scaled row by row by the gate, both as the region found them.
-/
import proofs.«179893_j36996848287772_1_alg».proof.Proof.Gen.KernelIdeal.Frame
import proofs.«179893_j36996848287772_1_alg».proof.Proof.ScaleLaw

noncomputable section

namespace Cert.KernelIdeal.ScaleValue

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

/-! ## The payload at an index -/

/-- The block's two zero offsets, as the constant function. -/
theorem zeros2 : (![0, 0] : Fin 2 → Nat) = fun _ => 0 :=
  funext fun a => by match a with | ⟨0, _⟩ => rfl | ⟨1, _⟩ => rfl

/-- The block's four zero offsets, as the constant function. -/
theorem zeros4 : (![0, 0, 0, 0] : Fin 4 → Nat) = fun _ => 0 :=
  funext fun a => by match a with | ⟨0, _⟩ => rfl | ⟨1, _⟩ => rfl | ⟨2, _⟩ => rfl | ⟨3, _⟩ => rfl

/-- One element of what a point computes: the input block's element (a, b, h, w) times the gate block's
    element (a, b). The gate block is viewed [8, 128, 1, 1] (same row-major position) and spread along the
    plane (the two unit axes are read at 0). -/
theorem scaled_block_apply (g : Vec Ideal S8x128 .f32) (xb : Vec Ideal S8x128x16x64 .f32)
    (a : Fin 8) (b : Fin 128) (h : Fin 16) (w : Fin 64) :
    k1_pay1 g xb (ValueIdx.ix4 a b h w) = xb (ValueIdx.ix4 a b h w) * g (ValueIdx.ix2 a b) := by
  unfold k1_pay1
  rw [ValueIdx.mulf_apply, shapeCast_self, shapeCast_self]
  congr 1
  refine (broadcastTo_apply _ _ (ValueIdx.ix4 a b h w) (ValueIdx.ix4 a b (0 : Fin 1) (0 : Fin 1)) fun d => ?_).trans ?_
  · match d with
    | ⟨0, _⟩ => rfl
    | ⟨1, _⟩ => rfl
    | ⟨2, _⟩ => rfl
    | ⟨3, _⟩ => rfl
  · refine shapeCast_apply g _ (ValueIdx.ix4 a b (0 : Fin 1) (0 : Fin 1)) (ValueIdx.ix2 a b) ?_
    rw [Shape.rowMajor_val_two, Shape.rowMajor_val_four]
    show a.val * 128 + b.val = ((a.val * 128 + b.val) * 1 + 0) * 1 + 0
    omega

/-! ## From the blocks to the array -/

/-- The three windows move together over the grid (decided over its 32 points): the input's block index is the
    result's on all four axes, and the gate's is the result's on the first two. -/
theorem windows_aligned : ∀ t : Fin cfg1.N,
    win1_0.index t (0 : Fin 4) = win1_2.index t (0 : Fin 4)
    ∧ win1_0.index t (1 : Fin 4) = win1_2.index t (1 : Fin 4)
    ∧ win1_0.index t (2 : Fin 4) = win1_2.index t (2 : Fin 4)
    ∧ win1_0.index t (3 : Fin 4) = win1_2.index t (3 : Fin 4)
    ∧ win1_1.index t (0 : Fin 2) = win1_2.index t (0 : Fin 4)
    ∧ win1_1.index t (1 : Fin 2) = win1_2.index t (1 : Fin 4) :=
  (by decide +kernel : ∀ t : Fin grid1.N, _)

/-- Every block of the 4 × 2 × 4 × 1 tiling is some point's. -/
theorem block_of_some_point : ∀ (q0 : Fin 4) (q1 : Fin 2) (q2 : Fin 4),
    ∃ t : Fin cfg1.N, win1_2.index t = ![q0.val, q1.val, q2.val, 0] :=
  (by decide +kernel : ∀ (q0 : Fin 4) (q1 : Fin 2) (q2 : Fin 4),
    ∃ t : Fin grid1.N, win1_2.index t = ![q0.val, q1.val, q2.val, 0])

/-- A point's result is the scaling read through an embedding of the block into the array, as soon as the input
    block is the input read through that embedding and the gate block's row (a, b) is the gate at the embedded
    index's first two coordinates. -/
theorem block_scaled (x : Cert.ScaleLaw.SX.Idx → EReal) (s : Cert.ScaleLaw.SP.Idx → EReal)
    (x0 : Vec Ideal S8x128x16x64 .f32) (x1 : Vec Ideal S8x128 .f32) (e : S8x128x16x64.Idx → Cert.ScaleLaw.SX.Idx)
    (h0 : ∀ j, x0 j = x (e j))
    (h1 : ∀ (a : Fin 8) (b : Fin 128) (h : Fin 16) (w : Fin 64),
      x1 (ValueIdx.ix2 a b) = s (ValueIdx.ix2 (e (ValueIdx.ix4 a b h w) 0) (e (ValueIdx.ix4 a b h w) 1))) :
    k1_pay1 x1 x0 = fun j => Cert.ScaleLaw.scaleBy x s (e j) := by
  funext j
  obtain ⟨a, b, h, w, rfl⟩ : ∃ (a : Fin 8) (b : Fin 128) (h : Fin 16) (w : Fin 64), j = ValueIdx.ix4 a b h w :=
    ⟨j 0, j 1, j 2, j 3, ValueIdx.eq_ix4 j⟩
  rw [scaled_block_apply, h0, h1 a b h w]
  rfl

/-- WHAT POINT `t` WRITES BACK is block `t` of the scaled input. -/
theorem point_writes_scaled_block (c : Dev nD) (t : Fin cfg1.N) :
    (dat1 (F := Ideal) V c).flushed 2 t
      = ((cfg1.win 2).blk t).view.read (Elt Ideal) (Cert.ScaleLaw.scaleBy (V c main_arg0) (V c main_v15)) := by
  show (cfg1.win 2).cut (grid1.coords t) ((dat1 V c).after 2 t) = _
  rw [after1_2]
  unfold out1_2
  rw [View.canon_unit_zero zeros4]
  simp only [View.ld_unit_zero (S := S8x128x16x64) zeros4, View.ld_unit_zero (S := S8x128) zeros2]
  obtain ⟨e0, e1, e2, e3, e4, e5⟩ := windows_aligned t
  show k1_pay1 (iblk1 V c 1 t) (iblk1 V c 0 t)
    = fun j => Cert.ScaleLaw.scaleBy (V c main_arg0) (V c main_v15) (((cfg1.win 2).blk t).view.emb j)
  refine block_scaled (V c main_arg0) (V c main_v15) _ _ _ (fun j => ?_) (fun a b h w => ?_)
  · -- the input's block sits where the result's does
    show V c main_arg0 (((cfg1.win 0).blk t).view.emb j) = V c main_arg0 (((cfg1.win 2).blk t).view.emb j)
    refine congrArg _ (funext fun d => Fin.ext ?_)
    match d with
    | ⟨0, _⟩ => show win1_0.index t (0 : Fin 4) * 8 + 1 * (j 0).val = win1_2.index t (0 : Fin 4) * 8 + 1 * (j 0).val; omega
    | ⟨1, _⟩ => show win1_0.index t (1 : Fin 4) * 128 + 1 * (j 1).val = win1_2.index t (1 : Fin 4) * 128 + 1 * (j 1).val; omega
    | ⟨2, _⟩ => show win1_0.index t (2 : Fin 4) * 16 + 1 * (j 2).val = win1_2.index t (2 : Fin 4) * 16 + 1 * (j 2).val; omega
    | ⟨3, _⟩ => show win1_0.index t (3 : Fin 4) * 64 + 1 * (j 3).val = win1_2.index t (3 : Fin 4) * 64 + 1 * (j 3).val; omega
  · -- the gate's block sits under the result's first two axes
    show V c main_v15 (((cfg1.win 1).blk t).view.emb (ValueIdx.ix2 a b)) = V c main_v15 (ValueIdx.ix2 _ _)
    refine congrArg _ (funext fun d => Fin.ext ?_)
    match d with
    | ⟨0, _⟩ => show win1_1.index t (0 : Fin 2) * 8 + 1 * a.val = win1_2.index t (0 : Fin 4) * 8 + 1 * a.val; omega
    | ⟨1, _⟩ => show win1_1.index t (1 : Fin 2) * 128 + 1 * b.val = win1_2.index t (1 : Fin 4) * 128 + 1 * b.val; omega

/-- An index of the array is in point `t`'s block iff each coordinate is in the block's range on its axis. -/
theorem mem_result_block_iff (t : Fin cfg1.N) (i : S32x256x64x64.Idx) :
    i ∈ ((cfg1.win 2).blk t).view.set ↔ ∀ a : Fin 4, win1_2.index t a * S8x128x16x64.size a ≤ (i a).val
      ∧ (i a).val < win1_2.index t a * S8x128x16x64.size a + S8x128x16x64.size a := by
  show i ∈ ((View.whole main_v16).slice (win1_2.rect t)).set ↔ _
  rw [View.set_slice_whole, Rect.mem_set_unit]
  exact Iff.rfl

/-- The blocks tile the array: index (b, ch, h, w) lies in the block of the point whose result block index is
    (b / 8, ch / 128, h / 16, 0), and every point writes its block back. -/
theorem result_blocks_tile (i : S32x256x64x64.Idx) :
    ∃ t : Fin cfg1.N, (cfg1.win 2).flush t = true ∧ i ∈ ((cfg1.win 2).blk t).view.set := by
  have hi0 : (i 0).val < 32 := (i 0).isLt
  have hi1 : (i 1).val < 256 := (i 1).isLt
  have hi2 : (i 2).val < 64 := (i 2).isLt
  have hi3 : (i 3).val < 64 := (i 3).isLt
  obtain ⟨t, ht⟩ := block_of_some_point ⟨(i 0).val / 8, by omega⟩ ⟨(i 1).val / 128, by omega⟩ ⟨(i 2).val / 16, by omega⟩
  have q0 : win1_2.index t (0 : Fin 4) = (i 0).val / 8 := congrFun ht 0
  have q1 : win1_2.index t (1 : Fin 4) = (i 1).val / 128 := congrFun ht 1
  have q2 : win1_2.index t (2 : Fin 4) = (i 2).val / 16 := congrFun ht 2
  have q3 : win1_2.index t (3 : Fin 4) = 0 := congrFun ht 3
  refine ⟨t, flush1_2 t, ?_⟩
  rw [mem_result_block_iff]
  intro a
  match a with
  | ⟨0, _⟩ => show win1_2.index t (0 : Fin 4) * 8 ≤ (i 0).val ∧ (i 0).val < win1_2.index t (0 : Fin 4) * 8 + 8; omega
  | ⟨1, _⟩ => show win1_2.index t (1 : Fin 4) * 128 ≤ (i 1).val ∧ (i 1).val < win1_2.index t (1 : Fin 4) * 128 + 128; omega
  | ⟨2, _⟩ => show win1_2.index t (2 : Fin 4) * 16 ≤ (i 2).val ∧ (i 2).val < win1_2.index t (2 : Fin 4) * 16 + 16; omega
  | ⟨3, _⟩ => show win1_2.index t (3 : Fin 4) * 64 ≤ (i 3).val ∧ (i 3).val < win1_2.index t (3 : Fin 4) * 64 + 64; omega

/-- After region 1 the result array holds the input scaled row by row by the gate, both as the region found them. -/
theorem scaled_arr (c : Dev nD) :
    (dat1 (F := Ideal) V c).arrAt 2 cfg1.N = Cert.ScaleLaw.scaleBy (V c main_arg0) (V c main_v15) :=
  (dat1 V c).arrAt_eq_of_cover 2 (Cert.ScaleLaw.scaleBy (V c main_arg0) (V c main_v15))
    (fun t _ => point_writes_scaled_block V c t) result_blocks_tile

end Cert.KernelIdeal.ScaleValue

end
-- ==== Proof.KernelValue.lean ====
/-
  The kernel program, read as a function of its arguments. Its run ends with the result array at what region 1's
  write-backs leave: the input scaled row by row by the gate array. The gate array is the gate of what region 0 left
  in the pooled array, which is the slab-by-slab mean of the input; the input and the weights are read as launched
  throughout. Composed, the result is the input scaled by the gate of its slab-by-slab mean and the weights.
-/
import proofs.«179893_j36996848287772_1_alg».proof.Proof.RunValue
import proofs.«179893_j36996848287772_1_alg».proof.Proof.Glue
import proofs.«179893_j36996848287772_1_alg».proof.Proof.Pool
import proofs.«179893_j36996848287772_1_alg».proof.Proof.Scale

noncomputable section

namespace Cert.KernelIdeal.KernelValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The kernel program's result as a function of its arguments. -/
def result (x : FVec Ideal S32x256x64x64 .f32) (w1 : FVec Ideal S16x256 .f32) (w2 : FVec Ideal S256x256 .f32) :
    FVec Ideal S32x256x64x64 .f32 :=
  Cert.ScaleLaw.scaleBy x
    (Cert.Gate.gate (F := Ideal) dot_S32x256_S16x256_S32x16_1_1_0_0_n_n dot_S32x256_S256x256_S32x256_1_1_0_0_n_n
      Cert.KernelIdeal.GateValue.gateFacts (Cert.PoolLaw.kpool x) w1 w2)

/-- The last boundary's contents of the result array are that function of the launch contents of the arguments. -/
theorem result_eq (c : Dev nD) :
    W5 m ρ c (Proc.devRef .tc main_v16)
      = result (m ((c : Thread nD τ).loc main_arg0)) (m ((c : Thread nD τ).loc main_arg1)) (m ((c : Thread nD τ).loc main_arg2)) := by
  rw [GateValue.W5_result, ScaleValue.scaled_arr (V4 m ρ) c]
  show Cert.ScaleLaw.scaleBy (W4 m ρ c (Proc.devRef .tc main_arg0)) (W4 m ρ c (Proc.devRef .tc main_v15)) = _
  rw [GateValue.W4_arg0, GateValue.gate_arr, GateValue.W1_pooled, PoolValue.pooled_arr (V0 m ρ) c,
    GateValue.W1_arg1, GateValue.W1_arg2]
  rfl

/-- Every weakly fair execution of the kernel program ends with the result array at that function of the launch
    contents of the arguments, and the arguments as launched. -/
theorem run_result :
    θ_run defs (onTc (τ := τ) (main (F := Ideal))) ⟨m, fun _ => 0, ρ⟩ fun r => ∀ c : Dev nD,
      r.2.mem ((c.tc : Thread nD τ).loc main_v16)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (result_eq m ρ c), (h c).2⟩)
    (Cert.KernelIdeal.RunValue.run_result (F := Ideal) m ρ)

end Cert.KernelIdeal.KernelValue

end
-- ==== Proof.Ref.lean ====
/-
  The reference, read as the same function. Its run ends with the result at the composed term of its twenty-seven
  host operations: the input times the twice-broadcast gate of (the plane sum divided by 4096) and the weights. The
  product with the broadcast gate is the row-by-row scaling; the plane sum divided by 4096 is the slab-by-slab mean;
  and what lies between is the gate, letter for letter.
-/
import proofs.«179893_j36996848287772_1_alg».proof.Proof.Gen.ReferenceIdeal.Run
import proofs.«179893_j36996848287772_1_alg».proof.Proof.Gate
import proofs.«179893_j36996848287772_1_alg».proof.Proof.PoolLaw
import proofs.«179893_j36996848287772_1_alg».proof.Proof.ScaleLaw

noncomputable section

namespace Cert.ReferenceIdeal.RefValue

open Cert.ReferenceIdeal Cert.ReferenceIdeal.Gen
open Idealize.ShloMosaic Idealize.ShloMosaic.TcCoe Idealize.SL.Sem

/-- The gate's shape facts are among the program's own. -/
theorem gateFacts : Cert.Gate.Facts :=
  ⟨Facts₀.bcast_S_S32x16, Facts₀.bcast_S32x16_S32x16x1_0_1, Facts₀.bcast_S32x16_S32x1x16_0_2, Facts₀.bcast_S32x16x1_S32x16x16_0_1_2, Facts₀.bcast_S32x1x16_S32x16x16_0_1_2, Facts₀.shapeCasts_S32x16x16_S32x256, Facts₀.bcast_S_S32x256⟩

/-- The reference's result as a function of its arguments: the input scaled row by row by the gate of its
    slab-by-slab mean and the weights. -/
def result (x : FVec Ideal S32x256x64x64 .f32) (w1 : FVec Ideal S16x256 .f32) (w2 : FVec Ideal S256x256 .f32) :
    FVec Ideal S32x256x64x64 .f32 :=
  Cert.ScaleLaw.scaleBy x
    (Cert.Gate.gate (F := Ideal) dot_S32x256_S16x256_S32x16_1_1_0_0_n_n dot_S32x256_S256x256_S32x256_1_1_0_0_n_n gateFacts
      (Cert.PoolLaw.kpool x) w1 w2)

/-- Every weakly fair execution of the reference ends with the result array at that function of the launch
    contents of the arguments, and the arguments as launched. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Cert.ReferenceIdeal.Value.run (F := Ideal) m ρ)
  unfold result
  rw [← Cert.ScaleLaw.mulf_bcast_eq_scaleBy _ _ Facts₀.bcast_S32x256_S32x256x1x1_0_1 Facts₀.bcast_S32x256x1x1_S32x256x64x64_0_1_2_3,
    Cert.PoolLaw.kpool_eq_mean _ Facts₀.reducesTo_S32x256x64x64_S32x256_d2_3 Facts₀.h_S_ Facts₀.bcast_S_S32x256]
  unfold Cert.Gate.gate Cert.Gate.hidden
  rfl

end Cert.ReferenceIdeal.RefValue

end
-- ==== Proof.lean ====
/-
  The kernel pools a [32, 256, 64, 64] input over its 64 × 64 planes, passes the pooled [32, 256] array through a small
  gate — times w1ᵀ, clamped at zero, each row's outer square flattened, times w2ᵀ, the logistic — and scales every
  plane of the input by its gate entry. It pools slab by slab: eight slabs of eight plane rows each, summed over
  lanes and then rows into an accumulator that starts at zero, the total multiplied by 2⁻¹² at the last slab. The
  reference sums each plane at once and divides by 4096. On the extended reals the two means are one function:
  sums regroup freely, since addition there is commutative and associative, and dividing by the real 4096 is
  multiplying by the real 1/4096 on every extended real, the infinite ones included; so no finiteness of the input is
  used. The gate and the scaling are the same operations in both programs and are carried as one function of equal
  arguments, never opened. The three frames are the programs' runs with the value forgotten; the kernel's
  idealization rewrote nothing, so that conjunct is empty.
-/
import proofs.«179893_j36996848287772_1_alg».proof.Defs
import proofs.«179893_j36996848287772_1_alg».proof.Proof.Gen.Kernel
import proofs.«179893_j36996848287772_1_alg».proof.Proof.Gen.Kernel.Skeleton
import proofs.«179893_j36996848287772_1_alg».proof.Proof.Gen.Kernel.Launch
import proofs.«179893_j36996848287772_1_alg».proof.Proof.Gen.Kernel.Points
import proofs.«179893_j36996848287772_1_alg».proof.Proof.Gen.Kernel.Frame
import proofs.«179893_j36996848287772_1_alg».proof.Proof.Gen.KernelIdeal
import proofs.«179893_j36996848287772_1_alg».proof.Proof.Gen.KernelIdeal.Skeleton
import proofs.«179893_j36996848287772_1_alg».proof.Proof.Gen.KernelIdeal.Launch
import proofs.«179893_j36996848287772_1_alg».proof.Proof.Gen.KernelIdeal.Points
import proofs.«179893_j36996848287772_1_alg».proof.Proof.Gen.KernelIdeal.Frame
import proofs.«179893_j36996848287772_1_alg».proof.Proof.Gen.ReferenceIdeal
import proofs.«179893_j36996848287772_1_alg».proof.Proof.Gen.ReferenceIdeal.Run
import proofs.«179893_j36996848287772_1_alg».proof.Proof.Gen.ReferenceIdeal.Read
import proofs.«179893_j36996848287772_1_alg».proof.Proof.Gen.Pre_finite_inputs
import proofs.«179893_j36996848287772_1_alg».proof.Proof.KernelValue
import proofs.«179893_j36996848287772_1_alg».proof.Proof.Ref
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two programs' dimension records for the two matrix products are the same records. -/
theorem dot1_eq : Cert.ReferenceIdeal.dot_S32x256_S16x256_S32x16_1_1_0_0_n_n = Cert.KernelIdeal.dot_S32x256_S16x256_S32x16_1_1_0_0_n_n := rfl
theorem dot2_eq : Cert.ReferenceIdeal.dot_S32x256_S256x256_S32x256_1_1_0_0_n_n = Cert.KernelIdeal.dot_S32x256_S256x256_S32x256_1_1_0_0_n_n := rfl

/-- The two programs' results are one function of the arguments: the same scaling by the same gate of the same
    slab-by-slab mean, the gate's records equal and its shape facts propositions. -/
theorem result_eq (x : FVec Ideal Cert.KernelIdeal.S32x256x64x64 .f32) (w1 : FVec Ideal Cert.KernelIdeal.S16x256 .f32)
    (w2 : FVec Ideal Cert.KernelIdeal.S256x256 .f32) :
    Cert.ReferenceIdeal.RefValue.result x w1 w2 = Cert.KernelIdeal.KernelValue.result x w1 w2 := by
  unfold Cert.ReferenceIdeal.RefValue.result Cert.KernelIdeal.KernelValue.result
  rw [dot1_eq, dot2_eq]

/-- From memories that agree on the arguments both idealized programs run, and end with equal results and
    unchanged arguments. -/
theorem algebraic : Cert.algebraic_KernelIdeal_ReferenceIdeal := by
  intro m ρ m' ρ' _ hagree
  refine ⟨_, Cert.KernelIdeal.KernelValue.run_result m ρ, ?_⟩
  refine (θ_run Cert.ReferenceIdeal.defs _ _).mono (fun _ h c => ⟨(h c).1.trans ?_, (h c).2⟩)
    (Cert.ReferenceIdeal.RefValue.run_result m' ρ')
  rw [(hagree c).1, (hagree c).2.1, (hagree c).2.2]
  exact result_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
